-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500x128 : Shape := ⟨2, ![500, 128]⟩
abbrev S128x128 : Shape := ⟨2, ![128, 128]⟩
abbrev S800000x3 : Shape := ⟨2, ![800000, 3]⟩
abbrev S_ : Shape := ⟨0, ![]⟩
abbrev S800000x1 : Shape := ⟨2, ![800000, 1]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  reducesTo_S800000_S_d0 : S800000.ReducesTo [0] S_
  slices_S800000x3_S800000x1_0_1 : S800000x3.Slices ![0, 1] S800000x1

variable [Facts]

def fn_part2 {F : FTy → Type} [FloatOps F] (main_arg4 : IVec S800000x3 32) (main_v30 : IVec S_ 1) (main_v34 : IVec S800000 1) : IVec S_ 1 :=
  let main_c_11 : IVec S_ 1 := constantI S_ 1 1#1
  let main_v35 : IVec S_ 1 := (fun x v => Host.reduce IntOp.andi x v reducesTo_S800000_S_d0 h_S_) main_v34 main_c_11
  let main_v36 : IVec S_ 1 := andi main_v30 main_v35
  let main_v37 : IVec S800000x1 32 := (extractStridedSlice S800000x1 ![0, 1] · slices_S800000x3_S800000x1_0_1) main_arg4
  let main_v38 : IVec S800000 32 := shapeCast S800000 main_v37 shapeCasts_S800000x1_S800000
  let main_c_12 : IVec S_ 32 := constantI S_ 32 500#32
  let main_v39 : IVec S800000 32 := broadcastInDim S800000 ![] bcast_S_S800000 main_c_12
  let main_v40 : IVec S800000 1 := cmpi .slt main_v38 main_v39
  let main_c_13 : IVec S_ 1 := constantI S_ 1 1#1
  let main_v41 : IVec S_ 1 := (fun x v => Host.reduce IntOp.andi x v reducesTo_S800000_S_d0 h_S_) main_v40 main_c_13
  let main_v42 : IVec S_ 1 := andi main_v36 main_v41
  main_v42

def fn_part1 {F : FTy → Type} [FloatOps F] (main_arg4 : IVec S800000x3 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : IVec S800000x1 32 := (extractStridedSlice S800000x1 ![0, 0] · slices_S800000x3_S800000x1_0_0) main_arg4
  let main_v20 : IVec S800000 32 := shapeCast S800000 main_v19 shapeCasts_S800000x1_S800000
  let main_c_6 : IVec S_ 32 := constantI S_ 32 0#32
  let main_v21 : IVec S800000 32 := broadcastInDim S800000 ![] bcast_S_S800000 main_c_6
  let main_v22 : IVec S800000 1 := cmpi .sge main_v20 main_v21
  let main_c_7 : IVec S_ 1 := constantI S_ 1 1#1
  let main_v23 : IVec S_ 1 := (fun x v => Host.reduce IntOp.andi x v reducesTo_S800000_S_d0 h_S_) main_v22 main_c_7
  let main_v24 : IVec S_ 1 := andi main_v18 main_v23
  let main_v25 : IVec S800000x1 32 := (extractStridedSlice S800000x1 ![0, 0] · slices_S800000x3_S800000x1_0_0) main_arg4
  let main_v26 : IVec S800000 32 := shapeCast S800000 main_v25 shapeCasts_S800000x1_S800000
  let main_c_8 : IVec S_ 32 := constantI S_ 32 100000#32
  let main_v27 : IVec S800000 32 := broadcastInDim S800000 ![] bcast_S_S800000 main_c_8
  let main_v28 : IVec S800000 1 := cmpi .slt main_v26 main_v27
  let main_c_9 : IVec S_ 1 := constantI S_ 1 1#1
  let main_v29 : IVec S_ 1 := (fun x v => Host.reduce IntOp.andi x v reducesTo_S800000_S_d0 h_S_) main_v28 main_c_9
  let main_v30 : IVec S_ 1 := andi main_v24 main_v29
  let main_v31 : IVec S800000x1 32 := (extractStridedSlice S800000x1 ![0, 1] · slices_S800000x3_S800000x1_0_1) main_arg4
  let main_v32 : IVec S800000 32 := shapeCast S800000 main_v31 shapeCasts_S800000x1_S800000
  let main_c_10 : IVec S_ 32 := constantI S_ 32 0#32
  let main_v33 : IVec S800000 32 := broadcastInDim S800000 ![] bcast_S_S800000 main_c_10
  let main_v34 : IVec S800000 1 := cmpi .sge main_v32 main_v33
  fn_part2 (F := F) main_arg4 main_v30 main_v34

def fn {F : FTy → Type} [FloatOps F] (main_arg0 : FVec F S100000x128 .f32) (main_arg1 : FVec F S500x128 .f32) (main_arg2 : FVec F S128x128 .f32) (main_arg3 : FVec F S128x128 .f32) (main_arg4 : IVec S800000x3 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S500x128 : Shape := ⟨2, ![500, 128]⟩
abbrev S128x128 : Shape := ⟨2, ![128, 128]⟩
abbrev S800000x3 : Shape := ⟨2, ![800000, 3]⟩
abbrev S800000x1 : Shape := ⟨2, ![800000, 1]⟩
abbrev S800000 : Shape := ⟨1, ![800000]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S6400x128 : Shape := ⟨2, ![6400, 128]⟩
abbrev S100000 : Shape := ⟨1, ![100000]⟩
abbrev S100000x1 : Shape := ⟨2, ![100000, 1]⟩
abbrev S5000x128 : Shape := ⟨2, ![5000, 128]⟩

abbrev nBuf : Space → Nat
  | .hbm => 79
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S128x128, .f32⟩
  | .hbm, ⟨3, _⟩ => ⟨S128x128, .f32⟩
  | .hbm, ⟨4, _⟩ => ⟨S800000x3, .i32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S800000x1, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x128, .f32⟩
  | .hbm, ⟨53, _⟩ => ⟨S800000x128, .i1⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S128x128, .f32⟩
  | .hbm, ⟨58, _⟩ => ⟨S128x128, .bf16⟩
  | .hbm, ⟨59, _⟩ => ⟨S128x128, .f32⟩
  | .hbm, ⟨60, _⟩ => ⟨S128x128, .bf16⟩
  | .hbm, ⟨61, _⟩ => ⟨S800000x128, .f32⟩
  | .hbm, ⟨62, _⟩ => ⟨S_, .f32⟩
  | .hbm, ⟨63, _⟩ => ⟨S100000x128, .f32⟩
  | .hbm, ⟨64, _⟩ => ⟨S800000x1, .i32⟩
  | .hbm, ⟨65, _⟩ => ⟨S100000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S100000, .f32⟩
  | .hbm, ⟨70, _⟩ => ⟨S800000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .bf16⟩
  | .local _ .vmem, ⟨5, _⟩ => ⟨S6400x128, .f32⟩
  | .local _ .vmem, ⟨6, _⟩ => ⟨S6400x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .bf16⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_0 : Ref sig .tc := ⟨.hbm, 66, rfl⟩
abbrev main_v16 : Ref sig .tc := ⟨.hbm, 67, rfl⟩
abbrev main_cst_1 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_cst_2 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S800000x3_S800000x1_0_0 : S800000x3.Slices ![0, 0] S800000x1
  shapeCasts_S800000x1_S800000 : S800000x1.ShapeCasts S800000
  slices_S800000x3_S800000x1_0_1 : S800000x3.Slices ![0, 1] S800000x1
  slices_S800000x3_S800000x1_0_2 : S800000x3.Slices ![0, 2] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  transposes_S128x128_S128x128_1_0 : S128x128.Transposes [1, 0] S128x128
  bitsLt_bf16_f32 : FTy.bits .bf16 < FTy.bits .f32
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S100000x128_S800000x1_S800000x128_1_0_n_n_0_1_1128_wf : GatherDims.WF S100000x128 S800000x1 S800000x128 [1] [0] [] [0] [] 1 ![1, 128]
  gather_S500x128_S800000x1_S800000x128_1_0_n_n_0_1_1128_wf : GatherDims.WF S500x128 S800000x1 S800000x128 [1] [0] [] [0] [] 1 ![1, 128]
  dot_S6400x128_S128x128_S6400x128_1_0_0_1_n_n_wf : DotDims.WF S6400x128 S128x128 S6400x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S800000x128.size a
  hwx0_3 : ∀ i : grid0.Coords, EltTy.bits .f32 = 32 ∨ (Rect.block (s := S800000x128) S6400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def gather_S500x128_S800000x1_S800000x128_1_0_n_n_0_1_1128 : GatherDims S500x128 S800000x1 S800000x128 where
  offsetDims := [1]
  collapsedSliceDims := [0]
  operandBatchingDims := []
  startIndicesBatchingDims := []
  startIndexMap := [0]
  indexVectorDim := 1
  sliceSizes := ![1, 128]
  wf := gather_S500x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S6400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S500x128 : Shape := ⟨2, ![500, 128]⟩
abbrev S128x128 : Shape := ⟨2, ![128, 128]⟩
abbrev S800000x3 : Shape := ⟨2, ![800000, 3]⟩
abbrev S800000x1 : Shape := ⟨2, ![800000, 1]⟩
abbrev S800000 : Shape := ⟨1, ![800000]⟩
abbrev S_ : Shape := ⟨0, ![]⟩
abbrev S800000x128 : Shape := ⟨2, ![800000, 128]⟩
abbrev S100000 : Shape := ⟨1, ![100000]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S128x128, .f32⟩
  | .hbm, ⟨3, _⟩ => ⟨S128x128, .f32⟩
  | .hbm, ⟨4, _⟩ => ⟨S800000x3, .i32⟩
  | .hbm, ⟨5, _⟩ => ⟨S800000x1, .i32⟩
  | .hbm, ⟨6, _⟩ => ⟨S800000, .i32⟩
  | .hbm, ⟨7, _⟩ => ⟨S800000x1, .i32⟩
  | .hbm, ⟨8, _⟩ => ⟨S800000, .i32⟩
  | .hbm, ⟨9, _⟩ => ⟨S800000x1, .i32⟩
  | .hbm, ⟨10, _⟩ => ⟨S800000, .i32⟩
  | .hbm, ⟨11, _⟩ => ⟨S128x128, .f32⟩
  | .hbm, ⟨12, _⟩ => ⟨S100000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S128x128, .f32⟩
  | .hbm, ⟨33, _⟩ => ⟨S800000x128, .f32⟩
  | .hbm, ⟨34, _⟩ => ⟨S_, .f32⟩
  | .hbm, ⟨35, _⟩ => ⟨S100000x128, .f32⟩
  | .hbm, ⟨36, _⟩ => ⟨S800000x1, .i32⟩
  | .hbm, ⟨37, _⟩ => ⟨S100000x128, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S100000, .f32⟩
  | .hbm, ⟨42, _⟩ => ⟨S800000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .i1⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S800000x3_S800000x1_0_0 : S800000x3.Slices ![0, 0] S800000x1
  shapeCasts_S800000x1_S800000 : S800000x1.ShapeCasts S800000
  slices_S800000x3_S800000x1_0_1 : S800000x3.Slices ![0, 1] S800000x1
  slices_S800000x3_S800000x1_0_2 : S800000x3.Slices ![0, 2] S800000x1
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  gather_S500x128_S800000x1_S800000x128_1_0_n_n_0_1_1128_wf : GatherDims.WF S500x128 S800000x1 S800000x128 [1] [0] [] [0] [] 1 ![1, 128]
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def gather_S500x128_S800000x1_S800000x128_1_0_n_n_0_1_1128 : GatherDims S500x128 S800000x1 S800000x128 where
  offsetDims := [1]
  collapsedSliceDims := [0]
  operandBatchingDims := []
  startIndicesBatchingDims := []
  startIndexMap := [0]
  indexVectorDim := 1
  sliceSizes := ![1, 128]
  wf := gather_S500x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.HostChain.lean ====
/-
  The array-level steps the two programs share, each written once: reading a column of the edge table, counting a
  negative index from the end of its axis, gathering a row per edge, and the mean of the edges' messages at each
  destination node.

  * `col k edges` is column `k` of the 800000 × 3 edge table as a vector (source node, relation, destination node).
  * `wrap n s` replaces every negative entry `s e` by `s e + n`: an index counted from the end of an axis of extent `n`.
  * `asCol s` is the vector as an 800000 × 1 array of start indices.
  * `gatherNodes`, `gatherRels`: per edge the row of the node table, of the relation table, at the wrapped index; the
    gather clamps a start index into the table, which matters only outside the tables' ranges.
  * `segMean msg edges`: at node `n`, the sum of `msg e` over the edges `e` whose destination is `n`, divided by
    `max (number of such edges) 1`; an edge whose destination is not a node is dropped by both scatter-adds.
  `segMean` is never opened: the two programs apply it to messages that are proved equal.
-/
import proofs.«408489_j43155831390586_1_alg».proof.ReferenceIdeal

noncomputable section

namespace Cert.ReferenceIdeal.Chain

open Cert.ReferenceIdeal Idealize.ShloMosaic

variable {F : FTy → Type} [FloatOps F] [Facts]
open Facts₀ Facts

/-- Column 0 of the edge table: each edge's source node. -/
def col0 (edges : IVec S800000x3 32) : IVec S800000 32 :=
  shapeCast _ (extractStridedSlice S800000x1 ![0, 0] edges slices_S800000x3_S800000x1_0_0) shapeCasts_S800000x1_S800000
/-- Column 1 of the edge table: each edge's relation. -/
def col1 (edges : IVec S800000x3 32) : IVec S800000 32 :=
  shapeCast _ (extractStridedSlice S800000x1 ![0, 1] edges slices_S800000x3_S800000x1_0_1) shapeCasts_S800000x1_S800000
/-- Column 2 of the edge table: each edge's destination node. -/
def col2 (edges : IVec S800000x3 32) : IVec S800000 32 :=
  shapeCast _ (extractStridedSlice S800000x1 ![0, 2] edges slices_S800000x3_S800000x1_0_2) shapeCasts_S800000x1_S800000

/-- A negative index counts from the end of an axis of extent `n`: `s e + n` where `s e < 0`, else `s e`. -/
def wrap (n : BitVec 32) (s : IVec S800000 32) : IVec S800000 32 :=
  select (cmpi .slt s (broadcastInDim S800000 ![] bcast_S_S800000 (constantI S_ 32 0#32)))
    (addi s (broadcastInDim S800000 ![] bcast_S_S800000 (constantI S_ 32 n))) s

/-- A vector of indices as an 800000 × 1 array of start indices. -/
def asCol (s : IVec S800000 32) : IVec S800000x1 32 :=
  broadcastInDim S800000x1 ![0] bcast_S800000_S800000x1_0 s

/-- Per edge, the row of the node table at the edge's (wrapped) source index. -/
def gatherNodes (nodes : FVec F S100000x128 .f32) (edges : IVec S800000x3 32) : FVec F S800000x128 .f32 :=
  Host.gather gather_S100000x128_S800000x1_S800000x128_1_0_n_n_0_1_1128 nodes (asCol (wrap 100000#32 (col0 edges)))

/-- Per edge, the row of the relation table at the edge's (wrapped) relation index. -/
def gatherRels (rels : FVec F S500x128 .f32) (edges : IVec S800000x3 32) : FVec F S800000x128 .f32 :=
  Host.gather gather_S500x128_S800000x1_S800000x128_1_0_n_n_0_1_1128 rels (asCol (wrap 500#32 (col1 edges)))

/-- The mean of the messages arriving at each node: their sum by destination over `max count 1`. -/
def segMean (msg : FVec F S800000x128 .f32) (edges : IVec S800000x3 32) : FVec F S100000x128 .f32 :=
  Host.divf
    (Host.scatterAdd scatter_S100000x128_S800000x1_S800000x128_1_0_0_1
      (broadcastInDim S100000x128 ![] bcast_S_S100000x128 (constant S_ .f32 0x00000000#32)) (asCol (col2 edges)) msg)
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32)) (asCol (col2 edges))
            (broadcastInDim S800000 ![] bcast_S_S800000 (constant S_ .f32 0x3F800000#32)))
          (broadcastInDim S100000 ![] bcast_S_S100000 (constant S_ .f32 0x3F800000#32)))))

end Cert.ReferenceIdeal.Chain

end
-- ==== Proof.IndexRange.lean ====
/-
  The index range the statement's precondition adds, and what it gives.

  `InRange edges`: every edge's source index is a row of the node table (`0 ≤ src < 100000`) and its relation index a row
  of the relation table (`0 ≤ rel < 500`), as signed 32-bit comparisons: the four `jnp.all` conjuncts the precondition
  carries beside finiteness.
  * `inRange_of_pre`: the printed precondition being all ones says so (a conjunction that is 1 has every conjunct 1; an
    `and`-reduction that is 1 met only 1s).
  * `take_test`: an index in `[0, n)` is not negative, so counting negative indices from the end leaves it as it is, and
    it passes the bounds test `0 ≤ · ≤ n - 1` that a filling take makes before it trusts a gathered row.
  * `reduce_andi_of_all`: conversely to the first item, an `and`-reduction from 1 over an array of 1s is 1.
-/
import proofs.«408489_j43155831390586_1_alg».proof.Pre_finite_inputs
import proofs.«408489_j43155831390586_1_alg».proof.Proof.HostChain
import Idealize.ShloMosaic.Lib.ReduceAll
import Idealize.ShloMosaic.Lib.StableHlo.Predicate
import Idealize.ShloMosaic.Lib.ValueIdx

noncomputable section

namespace Cert.IndexRange

open Idealize.ShloMosaic Idealize.ShloMosaic.ValueIdx

/-! ## An `and`-reduction over ones -/

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hf => by
    refine foldl_andi_of_all f l _ ?_ (fun n hn => hf n (List.mem_cons_of_mem _ hn))
    exact IntOp.andi_eq_one.2 ⟨h, hf a (List.mem_cons_self ..)⟩

/-- An `and`-reduction from the constant 1 over an array of 1s is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) (fun n _ => hx n)

/-! ## One index -/

/-- An index `s` with `0 ≤ s < n` (signed) is not negative, so the wrap `s < 0 ? s + n : s` is `s`, and `s` passes the
    test `0 ≤ · ≤ n - 1`. -/
theorem take_test (n : Nat) (hn : 0 < n) (hn' : n < 2 ^ 31) (s : BitVec 32)
    (h0 : IntOp.cmpi .sge s 0#32 = 1#1) (h1 : IntOp.cmpi .slt s (BitVec.ofNat 32 n) = 1#1) :
    IntOp.andi
      (IntOp.cmpi .sge (Scalar.select (IntOp.cmpi .slt s 0#32) (IntOp.addi s (BitVec.ofNat 32 n)) s) 0#32)
      (IntOp.cmpi .sle (Scalar.select (IntOp.cmpi .slt s 0#32) (IntOp.addi s (BitVec.ofNat 32 n)) s) (BitVec.ofNat 32 (n - 1)))
      = 1#1 := by
  have e0 : (0#32 : BitVec 32).toInt = 0 := by decide
  have en : (BitVec.ofNat 32 n).toInt = (n : Int) := StableHlo.Predicate.toInt_ofNat_small n hn'
  have en1 : (BitVec.ofNat 32 (n - 1)).toInt = ((n - 1 : Nat) : Int) := StableHlo.Predicate.toInt_ofNat_small (n - 1) (by omega)
  have g0 : (0 : Int) ≤ s.toInt := by
    have := h0
    simp only [IntOp.cmpi, StableHlo.Predicate.ofBool_eq_one_iff, BitVec.sle, decide_eq_true_eq, e0] at this
    exact this
  have g1 : s.toInt < (n : Int) := by
    have := h1
    simp only [IntOp.cmpi, StableHlo.Predicate.ofBool_eq_one_iff, BitVec.slt, decide_eq_true_eq, en] at this
    exact this
  have hneg : IntOp.cmpi .slt s 0#32 ≠ 1#1 := by
    simp only [IntOp.cmpi, StableHlo.Predicate.ofBool_eq_one_iff, BitVec.slt, decide_eq_true_eq, e0, ne_eq]
    omega
  have hw : Scalar.select (IntOp.cmpi .slt s 0#32) (IntOp.addi s (BitVec.ofNat 32 n)) s = s := by
    exact if_neg hneg
  rw [hw]
  refine IntOp.andi_eq_one.2 ⟨h0, ?_⟩
  simp only [IntOp.cmpi, StableHlo.Predicate.ofBool_eq_one_iff, BitVec.sle, decide_eq_true_eq, en1]
  omega

/-! ## The range of an edge table -/

section
open Cert.ReferenceIdeal Cert.ReferenceIdeal.Chain
variable [Cert.ReferenceIdeal.Facts]

/-- Every edge's source index is a row of the node table and its relation index a row of the relation table. -/
def InRange (edges : IVec S800000x3 32) : Prop :=
  ∀ e : S800000.Idx,
    IntOp.cmpi .sge (col0 edges e) 0#32 = 1#1 ∧ IntOp.cmpi .slt (col0 edges e) (BitVec.ofNat 32 100000) = 1#1 ∧
    IntOp.cmpi .sge (col1 edges e) 0#32 = 1#1 ∧ IntOp.cmpi .slt (col1 edges e) (BitVec.ofNat 32 500) = 1#1

instance : Subsingleton Cert.Pre_finite_inputs.S_.Idx := ⟨fun a b => funext fun d => d.elim0⟩

/-- The printed precondition being all ones gives the range: its last four conjuncts are the four comparisons, each under
    an `and`-reduction over the edges. -/
theorem inRange_of_pre {F : FTy → Type} [FloatOps F] [Cert.Pre_finite_inputs.Facts]
    (a0 : FVec F Cert.Pre_finite_inputs.S100000x128 .f32) (a1 : FVec F Cert.Pre_finite_inputs.S500x128 .f32)
    (a2 a3 : FVec F Cert.Pre_finite_inputs.S128x128 .f32) (edges : IVec S800000x3 32)
    (h : Cert.Pre_finite_inputs.fn (F := F) a0 a1 a2 a3 edges = fun _ => 1#1) : InRange edges := by
  have h0 := congrFun h ix0
  dsimp only [Cert.Pre_finite_inputs.fn, Cert.Pre_finite_inputs.fn_part1, Cert.Pre_finite_inputs.fn_part2] at h0
  obtain ⟨h1, r4⟩ := IntOp.andi_eq_one.1 h0
  obtain ⟨h2, r3⟩ := IntOp.andi_eq_one.1 h1
  obtain ⟨h3, r2⟩ := IntOp.andi_eq_one.1 h2
  obtain ⟨-, r1⟩ := IntOp.andi_eq_one.1 h3
  intro e
  exact ⟨Host.reduce_andi_all _ _ _ _ ix0 r1 e, Host.reduce_andi_all _ _ _ _ ix0 r2 e,
    Host.reduce_andi_all _ _ _ _ ix0 r3 e, Host.reduce_andi_all _ _ _ _ ix0 r4 e⟩

end

end Cert.IndexRange

end
-- ==== Proof.Spec.lean ====
/-
  The mathematics both programs compute, as functions of whole arrays over the extended reals.

  A graph layer over 100000 nodes, 800000 edges and 500 relation types, all rows of width 128:
  * the MESSAGE of edge `e` is the row `(gn e + ge e) · w`, where `gn e` is the gathered embedding of the edge's source
    node, `ge e` that of its relation, and `w` a 128 × 128 matrix: entry `j` is `∑ k, (gn e k + ge e k) · w k j`;
  * the COMBINATION at node `n` is the activation of `x n · w + mean n`: entry `j` is
    `act (∑ k, x n k · w k j + mean n j)`, with `mean` the per-node mean of the incoming messages;
  * the ACTIVATION keeps a value that compares `≥ 0` and scales any other by the constant whose binary32 word is
    `0x3E6AAAAB` (the rounding of 11/48). The word is kept as a word: both programs carry the same one, so its
    value is never needed.
  Sums are over `Fin 128` and indices are built from their coordinates, so each side's contraction is re-indexed to
  this one form once.
-/
import Idealize.ShloMosaic.PureOps.Ideal
import Idealize.ShloMosaic.Lib.ValueIdx

noncomputable section

open scoped BigOperators

namespace Cert.Spec

open Idealize.ShloMosaic Idealize.ShloMosaic.ValueIdx

/-- Edge rows: 800000 × 128. -/
abbrev SE : Shape := ⟨2, ![800000, 128]⟩
/-- Node rows: 100000 × 128. -/
abbrev SN : Shape := ⟨2, ![100000, 128]⟩
/-- A weight matrix: 128 × 128. -/
abbrev SW : Shape := ⟨2, ![128, 128]⟩

/-- Entry `j` of edge `e`'s message: `∑ k, (gn e k + ge e k) · w k j`. -/
def msgAt (gn ge : SE.Idx → EReal) (w : SW.Idx → EReal) (e : Fin 800000) (j : Fin 128) : EReal :=
  ∑ k : Fin 128, (gn (ix2 e k) + ge (ix2 e k)) * w (ix2 k j)

/-- The messages of all edges, as one array. -/
def message (gn ge : SE.Idx → EReal) (w : SW.Idx → EReal) : SE.Idx → EReal :=
  fun i => msgAt gn ge w (i 0) (i 1)

/-- The activation: `h` where `h ≥ 0`, the constant of word `0x3E6AAAAB` times `h` elsewhere. -/
def act (h : EReal) : EReal :=
  Scalar.select (FloatOps.cmpf (F := Ideal) (φ := .f32) .oge h (FloatOps.ofBits (F := Ideal) .f32 0x00000000#32)) h
    (FloatOps.mulf (F := Ideal) (φ := .f32) (FloatOps.ofBits (F := Ideal) .f32 0x3E6AAAAB#32) h)

/-- Entry `j` of node `n`'s combination: `act (∑ k, x n k · w k j + mean n j)`. -/
def combAt (x mean : SN.Idx → EReal) (w : SW.Idx → EReal) (n : Fin 100000) (j : Fin 128) : EReal :=
  act ((∑ k : Fin 128, x (ix2 n k) * w (ix2 k j)) + mean (ix2 n j))

/-- The combinations of all nodes, as one array. -/
def combine (x mean : SN.Idx → EReal) (w : SW.Idx → EReal) : SN.Idx → EReal :=
  fun i => combAt x mean w (i 0) (i 1)

end Cert.Spec

end
-- ==== Proof.Region0.lean ====
import proofs.«408489_j43155831390586_1_alg».proof.Proof.Gen.KernelIdeal.Frame
import proofs.«408489_j43155831390586_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## One block's product, entry by entry -/

/-- The left operand's row coordinate at output index `i` is the output's row. -/
theorem lhs_row (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
/-- The left operand's column coordinate is the contraction index. -/
theorem lhs_col (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
/-- The right operand's row coordinate is the contraction index. -/
theorem rhs_row (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
/-- The right operand's column coordinate at output index `i` is the output's column. -/
theorem rhs_col (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A 6400 × 128 by 128 × 128 product into a zero accumulator, at row `p` and column `q`: the sum over the
    shared axis of the row's entries times the column's. -/
theorem product_apply (l : FVec Ideal S6400x128 .bf16) (r : FVec Ideal S128x128 .bf16) (p : Fin 6400) (q : Fin 128) :
    matmul dot_S6400x128_S128x128_S6400x128_1_0_0_1_n_n none l r (constant S6400x128 .f32 0x00000000#32) (ix2 p q)
      = ∑ k : Fin 128, l (ix2 p k) * r (ix2 k q) := by
  show FloatOps.matmul dot_S6400x128_S128x128_S6400x128_1_0_0_1_n_n none l r (constant S6400x128 .f32 0x00000000#32) (ix2 p q) = _
  rw [Ideal.matmul_constant_zero_apply, ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p q) ((contrEquiv1 dot_S6400x128_S128x128_S6400x128_1_0_0_1_n_n 128 rfl rfl).symm k) = ix2 p k := funext fun a => Fin.ext (by
    match a with
    | ⟨0, _⟩ => exact lhs_row _ _
    | ⟨1, _⟩ => exact (lhs_col _ _).trans hk)
  have er : dot_S6400x128_S128x128_S6400x128_1_0_0_1_n_n.rhsIdx (ix2 p q) ((contrEquiv1 dot_S6400x128_S128x128_S6400x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's value at row `p`, column `q` of its block: the two row blocks are added entry by entry (the change of
    format in between is the identity on the extended reals) and the sum's row `p` is multiplied into column `q` of the
    weight block. -/
theorem body_apply (x0 x1 : Vec Ideal S6400x128 .f32) (x2 : Vec Ideal S128x128 .bf16) (p : Fin 6400) (q : Fin 128) :
    k0_pay1 (F := Ideal) x0 x1 x2 (ix2 p q) = ∑ k : Fin 128, (x0 (ix2 p k) + x1 (ix2 p k)) * x2 (ix2 k q) := by
  unfold k0_pay1
  simp only [shapeCast_self]
  rw [product_apply]
  rfl

variable (V : (c : Dev nD) → (b : Ref sig .tc) → Buf (Elt Ideal) ((c : Thread nD τ).loc b))

/-! ## The blocks, as rows of the arrays -/

/-- The offsets `(0, 0)`, however they are spelt. -/
theorem zero_offsets : (![0, 0] : Fin 2 → Nat) = fun _ => 0 := funext fun a => by fin_cases a <;> rfl

/-- Where each window's block sits at grid point `t`: the three row-blocked windows are at block `t` of rows, the
    weight window stays at its one block; no window moves along the columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the node-row block at point `t` is row `6400 t + p` of the gathered node rows. -/
theorem nodeRows_block (c : Dev nD) (t : Fin cfg0.N) (p : Fin 6400) (k : Fin 128) (e : Fin 800000)
    (he : e.val = t.val * 6400 + p.val) :
    (iblk0 V c 0 t : Vec Ideal S6400x128 .f32) (ix2 p k) = (V c main_v6 : Cert.Spec.SE.Idx → EReal) (ix2 e k) := by
  obtain ⟨h0, h1, -⟩ := block_index t
  unfold iblk0
  rw [View.read_apply]
  show V c main_v6 _ = V c main_v6 _
  congr 1
  funext a
  apply Fin.ext
  match a with
  | ⟨0, _⟩ => show win0_0.index t (0 : Fin 2) * 6400 + 1 * p.val = e.val; omega
  | ⟨1, _⟩ => show win0_0.index t (1 : Fin 2) * 128 + 1 * k.val = k.val; omega

/-- Row `p` of the relation-row block at point `t` is row `6400 t + p` of the gathered relation rows. -/
theorem relRows_block (c : Dev nD) (t : Fin cfg0.N) (p : Fin 6400) (k : Fin 128) (e : Fin 800000)
    (he : e.val = t.val * 6400 + p.val) :
    (iblk0 V c 1 t : Vec Ideal S6400x128 .f32) (ix2 p k) = (V c main_v7 : Cert.Spec.SE.Idx → EReal) (ix2 e k) := by
  obtain ⟨-, -, h0, h1, -⟩ := block_index t
  unfold iblk0
  rw [View.read_apply]
  show V c main_v7 _ = V c main_v7 _
  congr 1
  funext a
  apply Fin.ext
  match a with
  | ⟨0, _⟩ => show win0_1.index t (0 : Fin 2) * 6400 + 1 * p.val = e.val; omega
  | ⟨1, _⟩ => show win0_1.index t (1 : Fin 2) * 128 + 1 * k.val = k.val; omega

/-- The weight block at every point is the whole weight matrix. -/
theorem weight_block (c : Dev nD) (t : Fin cfg0.N) (k : Fin 128) (q : Fin 128) :
    (iblk0 V c 2 t : Vec Ideal S128x128 .bf16) (ix2 k q) = (V c main_v9 : Cert.Spec.SW.Idx → EReal) (ix2 k q) := by
  obtain ⟨-, -, -, -, h0, h1, -⟩ := block_index t
  unfold iblk0
  rw [View.read_apply]
  show V c main_v9 _ = V c main_v9 _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-! ## What one grid point writes back -/

/-- The output block of point `t` is block `t` of the messages: its row `p` is the message of edge `6400 t + p`,
    because that row of each input block is that edge's row and the weight block is the whole matrix. -/
theorem writeBack_eq (c : Dev nD) (t : Fin cfg0.N) :
    (dat0 (F := Ideal) V c).flushed 3 t
      = ((cfg0.win 3).blk t).view.read (Elt Ideal) (Cert.Spec.message (V c main_v6) (V c main_v7) (V c main_v9)) := by
  show (cfg0.win 3).cut (grid0.coords t) ((dat0 V c).after 3 t) = _
  rw [after0_3]
  unfold out0_3
  rw [View.canon_unit_zero zero_offsets]
  simp only [View.ld_unit_zero (S := S6400x128) zero_offsets, View.ld_unit_zero (S := S128x128) zero_offsets]
  obtain ⟨-, -, -, -, -, -, h0, h1⟩ := block_index t
  funext j
  obtain ⟨p, q, rfl⟩ : ∃ (p : Fin 6400) (q : Fin 128), j = ix2 p q := ⟨j 0, j 1, eq_ix2 (n0 := 6400) (n1 := 128) j⟩
  show k0_pay1 (F := Ideal) (iblk0 V c 0 t) (iblk0 V c 1 t) (iblk0 V c 2 t) (ix2 p q)
    = Cert.Spec.message (V c main_v6) (V c main_v7) (V c main_v9) (((cfg0.win 3).blk t).view.emb (ix2 p q))
  rw [body_apply]
  unfold Cert.Spec.message Cert.Spec.msgAt
  have he : ((((cfg0.win 3).blk t).view.emb (ix2 p q)) 0).val = t.val * 6400 + p.val := by
    show win0_3.index t (0 : Fin 2) * 6400 + 1 * p.val = _; omega
  have hq : ((((cfg0.win 3).blk t).view.emb (ix2 p q)) 1 : Fin 128) = q := Fin.ext (by
    show win0_3.index t (1 : Fin 2) * 128 + 1 * q.val = _; omega)
  refine Finset.sum_congr rfl fun k _ => ?_
  rw [nodeRows_block V c t p k _ he, relRows_block V c t p k _ he, weight_block V c t k q, hq]

/-! ## The blocks tile the array -/

/-- An index of the array lies in point `t`'s output block exactly when each coordinate lies in the block's range
    on its axis. -/
theorem mem_outBlock (t : Fin cfg0.N) (i : S800000x128.Idx) :
    i ∈ ((cfg0.win 3).blk t).view.set
      ↔ ∀ a : Fin 2, win0_3.index t a * S6400x128.size a ≤ (i a).val ∧ (i a).val < win0_3.index t a * S6400x128.size a + S6400x128.size a := by
  show i ∈ ((View.whole main_v12).slice (win0_3.rect t)).set ↔ _
  rw [View.set_slice_whole, Rect.mem_set_unit]
  exact Iff.rfl

/-- Every edge row is in the block of exactly the point `row / 6400` (125 blocks of 6400 rows are the 800000 rows),
    and every point writes its block back. -/
theorem rows_covered (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : cfg0.N = 125 := N_0
  let t : Fin cfg0.N := ⟨(i 0).val / 6400, by rw [hN]; omega⟩
  obtain ⟨-, -, -, -, -, -, h0, h1⟩ := block_index t
  have ht : t.val = (i 0).val / 6400 := rfl
  refine ⟨t, flush0_3 t, ?_⟩
  rw [mem_outBlock]
  intro a
  match a with
  | ⟨0, _⟩ => show win0_3.index t (0 : Fin 2) * 6400 ≤ (i 0).val ∧ (i 0).val < win0_3.index t (0 : Fin 2) * 6400 + 6400; omega
  | ⟨1, _⟩ => show win0_3.index t (1 : Fin 2) * 128 ≤ (i 1).val ∧ (i 1).val < win0_3.index t (1 : Fin 2) * 128 + 128; omega

/-! ## The array after all points -/

/-- After all 125 points the output array holds every edge's message: each point writes back its block of the
    messages, and the blocks cover all 800000 rows. -/
theorem final0 (c : Dev nD) :
    (dat0 (F := Ideal) V c).arrAt 3 cfg0.N = Cert.Spec.message (V c main_v6) (V c main_v7) (V c main_v9) :=
  (dat0 (F := Ideal) V c).arrAt_eq_of_cover 3 (Cert.Spec.message (V c main_v6) (V c main_v7) (V c main_v9))
    (fun t _ => writeBack_eq V c t) rows_covered

end Cert.KernelIdeal.Region0

end
-- ==== Proof.Region1.lean ====
import proofs.«408489_j43155831390586_1_alg».proof.Proof.Gen.KernelIdeal.Frame
import proofs.«408489_j43155831390586_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # The second region: the combination at every node

The region runs over 20 points. Point `t` holds rows `5000 t … 5000 t + 4999` of the node table `x` and of the mean of
the incoming messages, and the whole 128 × 128 weight `w`; it stores, at row `p` and column `q` of its block of the
result, the activation of `∑ k, x (p, k) · w (k, q) + mean (p, q)`. First the body's arithmetic is read at one entry
of a block; then each block is read as rows of its array; then the 20 blocks are put together into the array. -/

/-! ## The contraction of the body's product, axis by axis

The product contracts axis 1 of its left operand with axis 0 of its right one. At output index `i` and contraction
index `q`, the left operand is read at row `i 0`, column `q`; the right one at row `q`, column `i 1`. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `q` of a block: the sum over `k` of the left operand's
    entry `(p, k)` times the right operand's entry `(k, q)`. -/
theorem product_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic at row `p` and column `q` of a block: the activation of the product's entry plus the
    mean's entry. The change of format before the product is the identity on extended reals, the casts are to the
    same shape, and what follows the product is pointwise. -/
theorem payload_at (x0 x1 : Vec Ideal S5000x128 .f32) (x2 : Vec Ideal S128x128 .bf16) (p : Fin 5000) (q : Fin 128) :
    k1_pay1 (F := Ideal) x0 x2 x1 (ix2 p q)
      = Cert.Spec.act ((∑ k : Fin 128, x0 (ix2 p k) * x2 (ix2 k q)) + x1 (ix2 p q)) := by
  unfold k1_pay1
  simp only [shapeCast_self]
  rw [select_apply, cmpf_apply, mulf_apply, addf_apply, broadcast_apply, broadcast_apply, product_at]
  rfl

/-! ## From the blocks to the array

The grid has 20 points. Point `t` reads rows `5000 t … 5000 t + 4999` of the node table and of the mean, all of the
weight, and writes the same rows of the result; the 20 row ranges tile the 100000 rows. -/

/-- The all-zero offsets of a whole-block access. -/
theorem zero_offsets : (![0, 0] : Fin 2 → Nat) = fun _ => 0 := funext fun a => by fin_cases a <;> rfl

/-- The grid's size, as a bound on a point's number. -/
theorem point_lt (t : Fin cfg1.N) : t.val < 20 := lt_of_lt_of_eq t.isLt N_1

/-- The windows' block indices, decided over the grid: at point `t` each row-blocked window is at block `t` of the
    rows and block 0 of the columns, and the weight's window at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `5000 t + p` of the array. -/
def rowOf (t : Fin cfg1.N) (p : Fin 5000) : Fin 100000 := ⟨t.val * 5000 + p.val, by have := point_lt t; omega⟩

/-- Entry `(p, k)` of the node table's block at point `t` is entry `(5000 t + p, k)` of the table. -/
theorem nodes_block_at (c : Dev nD) (t : Fin cfg1.N) (p : Fin 5000) (k : Fin 128) :
    (iblk1 V c 0 t : Vec Ideal S5000x128 .f32) (ix2 p k) = (V c main_arg0 : S100000x128.Idx → EReal) (ix2 (rowOf t p) k) := by
  obtain ⟨e0, e1, -⟩ := block_indices t
  show (V c main_arg0 : S100000x128.Idx → EReal) (((cfg1.win 0).blk t).view.emb (ix2 p k)) = _
  congr 1
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Entry `(p, q)` of the mean's block at point `t` is entry `(5000 t + p, q)` of the mean. -/
theorem mean_block_at (c : Dev nD) (t : Fin cfg1.N) (p : Fin 5000) (q : Fin 128) :
    (iblk1 V c 1 t : Vec Ideal S5000x128 .f32) (ix2 p q) = (V c main_v24 : S100000x128.Idx → EReal) (ix2 (rowOf t p) q) := by
  obtain ⟨-, -, e2, e3, -⟩ := block_indices t
  show (V c main_v24 : S100000x128.Idx → EReal) (((cfg1.win 1).blk t).view.emb (ix2 p q)) = _
  congr 1
  funext a; apply Fin.ext
  match a with
  | ⟨0, _⟩ => show win1_1.index t (0 : Fin 2) * 5000 + 1 * p.val = t.val * 5000 + p.val; rw [e2]; omega
  | ⟨1, _⟩ => show win1_1.index t (1 : Fin 2) * 128 + 1 * q.val = q.val; rw [e3]; omega

/-- The weight's block at every point is the whole weight. -/
theorem weight_block_at (c : Dev nD) (t : Fin cfg1.N) (k q : Fin 128) :
    (iblk1 V c 2 t : Vec Ideal S128x128 .bf16) (ix2 k q) = (V c main_v11 : S128x128.Idx → EReal) (ix2 k q) := by
  obtain ⟨-, -, -, -, e4, e5, -⟩ := block_indices t
  show (V c main_v11 : S128x128.Idx → EReal) (((cfg1.win 2).blk t).view.emb (ix2 k q)) = _
  congr 1
  funext a; apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- Entry `(p, q)` of the result's block at point `t` sits at entry `(5000 t + p, q)` of the result. -/
theorem result_block_emb (t : Fin cfg1.N) (p : Fin 5000) (q : Fin 128) :
    ((cfg1.win 3).blk t).view.emb (ix2 p q) = (ix2 (rowOf t p) q : S100000x128.Idx) := by
  obtain ⟨-, -, -, -, -, -, e6, e7⟩ := block_indices t
  funext a; apply Fin.ext
  match a with
  | ⟨0, _⟩ => show win1_3.index t (0 : Fin 2) * 5000 + 1 * p.val = t.val * 5000 + p.val; rw [e6]; omega
  | ⟨1, _⟩ => show win1_3.index t (1 : Fin 2) * 128 + 1 * q.val = q.val; rw [e7]; omega

/-- The combination at row `n` and column `q`: the activation of the row of the table times the column of the weight, plus
    the mean's entry. -/
theorem combine_at (x mean : Cert.Spec.SN.Idx → EReal) (w : Cert.Spec.SW.Idx → EReal) (n : Fin 100000) (q : Fin 128) :
    Cert.Spec.combine x mean w (ix2 n q)
      = Cert.Spec.act ((∑ k : Fin 128, x (ix2 n k) * w (ix2 k q)) + mean (ix2 n q)) := rfl

/-- What point `t` writes back is block `t` of the combination of the three arrays as the region finds them: the body's
    one store fills the block with its arithmetic of the three loaded blocks, whose entries are the arrays' entries of
    the block's rows. -/
theorem written_back (c : Dev nD) (t : Fin cfg1.N) :
    (dat1 (F := Ideal) V c).flushed 3 t
      = ((cfg1.win 3).blk t).view.read (Elt Ideal) (Cert.Spec.combine (V c main_arg0) (V c main_v24) (V c main_v11)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 1 t) (ix2 p q)
    = Cert.Spec.combine (V c main_arg0) (V c main_v24) (V c main_v11) (((cfg1.win 3).blk t).view.emb (ix2 p q))
  rw [result_block_emb]
  refine (payload_at _ _ _ p q).trans (Eq.trans ?_ (combine_at _ _ _ (rowOf t p) q).symm)
  refine congrArg Cert.Spec.act (congrArg₂ (· + ·) (Finset.sum_congr rfl fun k _ => ?_) (mean_block_at V c t p q))
  exact congrArg₂ (· * ·) (nodes_block_at V c t p k) (weight_block_at V c t k q)

/-- An index of the result is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25).slice (win1_3.rect t)).set ↔ _
  rw [View.set_slice_whole, Rect.mem_set_unit]
  exact Iff.rfl

/-- Every index of the result is in the block of the point its row falls to, row `r` to point `r / 5000`; every point
    writes its block back. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e6, e7⟩ := block_indices t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; rw [e6]; omega
  | ⟨1, _⟩ => show win1_3.index t (1 : Fin 2) * 128 ≤ (i 1).val ∧ (i 1).val < win1_3.index t (1 : Fin 2) * 128 + 128; rw [e7]; omega

/-- The result array after all 20 points is the combination of the node table, the mean and the weight as the region
    finds them: each point writes its block of it, and the blocks cover the array. -/
theorem final1 (c : Dev nD) :
    (dat1 (F := Ideal) V c).arrAt 3 cfg1.N = Cert.Spec.combine (V c main_arg0) (V c main_v24) (V c main_v11) :=
  (dat1 (F := Ideal) V c).arrAt_eq_of_cover 3 (Cert.Spec.combine (V c main_arg0) (V c main_v24) (V c main_v11))
    (fun t _ => written_back V c t) covered

end Cert.KernelIdeal.Region1

end
-- ==== Proof.KernelValue.lean ====
/-
  What the kernel's program leaves in its result array, read back boundary by boundary.

  @main is seven stretches: the three columns of the edge table; a filling take of the node table at the source indices;
  a filling take of the relation table at the relation indices; the two transposed weights; the first region (the
  messages); the mean of the messages by destination; the second region (the combination). The contents of the buffers
  at each boundary are the previous boundary's with the stretch's results written in, so each array a region reads is
  read back to the arguments:
  * a filling take returns the gathered row where its index passes `0 ≤ · ≤ extent - 1` after negative indices are
    counted from the end, and a filler row elsewhere; on an edge table whose indices are in range every index passes, so
    the take IS the gather;
  * the weights are the transposes, the change of format being the identity on the extended reals;
  * the mean is the shared chain of the two scatter-adds, applied to the first region's array.
-/
import proofs.«408489_j43155831390586_1_alg».proof.Proof.KernelRun
import proofs.«408489_j43155831390586_1_alg».proof.Proof.Region0
import proofs.«408489_j43155831390586_1_alg».proof.Proof.Region1
import proofs.«408489_j43155831390586_1_alg».proof.Proof.HostChain
import proofs.«408489_j43155831390586_1_alg».proof.Proof.IndexRange
import Idealize.ShloMosaic.Lib.StableHlo.Run
import Idealize.ShloMosaic.PureOps.Ideal

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal (Chain.col0 Chain.col1 Chain.col2 Chain.wrap Chain.asCol Chain.gatherNodes Chain.gatherRels Chain.segMean)
open Cert.IndexRange (InRange)

variable [Cert.ReferenceIdeal.Facts]
variable (m : (ℓ : Loc nD τ sig) → Buf (Elt Ideal) ℓ) (ρ : Dev nD → PrngReg)

/-- The node table, the relation table, the two weights and the edge table: the arguments on core `c`. -/
abbrev nodes (c : Dev nD) : FVec Ideal S100000x128 .f32 := m ((c : Thread nD τ).loc main_arg0)
abbrev rels (c : Dev nD) : FVec Ideal S500x128 .f32 := m ((c : Thread nD τ).loc main_arg1)
abbrev wSelf (c : Dev nD) : FVec Ideal S128x128 .f32 := m ((c : Thread nD τ).loc main_arg2)
abbrev wAgg (c : Dev nD) : FVec Ideal S128x128 .f32 := m ((c : Thread nD τ).loc main_arg3)
abbrev edges (c : Dev nD) : IVec S800000x3 32 := m ((c : Thread nD τ).loc main_arg4)

/-! ## The first stretch: the columns of the edge table -/

theorem srcCol_at (c : Dev nD) : W1 (F := Ideal) m ρ c (Proc.devRef .tc main_v1) = Chain.col0 (edges m c) := by
  show StableHlo.after hostOps0 (W0 (F := Ideal) m ρ c) (Proc.devRef .tc main_v1) = _
  dsimp only [hostOps0]
  after_results
  rfl

theorem relCol_at (c : Dev nD) : W1 (F := Ideal) m ρ c (Proc.devRef .tc main_v3) = Chain.col1 (edges m c) := by
  show StableHlo.after hostOps0 (W0 (F := Ideal) m ρ c) (Proc.devRef .tc main_v3) = _
  dsimp only [hostOps0]
  after_results
  rfl

theorem dstCol_at (c : Dev nD) : W1 (F := Ideal) m ρ c (Proc.devRef .tc main_v5) = Chain.col2 (edges m c) := by
  show StableHlo.after hostOps0 (W0 (F := Ideal) m ρ c) (Proc.devRef .tc main_v5) = _
  dsimp only [hostOps0]
  after_results
  rfl

theorem nodes_at1 (c : Dev nD) : W1 (F := Ideal) m ρ c (Proc.devRef .tc main_arg0) = nodes m c := by
  show StableHlo.after hostOps0 (W0 (F := Ideal) m ρ c) (Proc.devRef .tc main_arg0) = _
  dsimp only [hostOps0]
  after_results

theorem rels_at1 (c : Dev nD) : W1 (F := Ideal) m ρ c (Proc.devRef .tc main_arg1) = rels m c := by
  show StableHlo.after hostOps0 (W0 (F := Ideal) m ρ c) (Proc.devRef .tc main_arg1) = _
  dsimp only [hostOps0]
  after_results

/-! ## A filling take, piece by piece -/

/-- The start indices of a take along an axis of extent `n`: a negative index counted from the end, then the vector as
    a column. -/
def startCol (n : BitVec 32) (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 n))) s)

/-- The take's bounds test: 1 at the edges whose start index lies in `0 … hi`. -/
def inBounds (hi : BitVec 32) (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 hi)))))
    (constantI S_ 1 1#1) reducesTo_S800000x1_S800000_d1 h_S_

/-- The gathered row where the test passed, a filler row (the word `0x7FC00000` in every entry) elsewhere. -/
def fill (ok : IVec S800000 1) (g : FVec Ideal S800000x128 .f32) : FVec Ideal S800000x128 .f32 :=
  select (broadcastInDim S800000x128 ![0] bcast_S800000_S800000x128_0 ok) g
    (broadcastInDim S800000x128 ![] bcast_S_S800000x128 (constant S_ .f32 0x7FC00000#32))

/-- Where the test passes at every edge, the filler is never used. -/
theorem fill_of_all (ok : IVec S800000 1) (g : FVec Ideal S800000x128 .f32) (h : ∀ e, ok e = 1#1) : fill ok g = g := by
  funext i
  exact if_pos (h _)

/-- An index vector with every entry in `[0, n)` passes the bounds test `0 … n - 1` at every edge: each entry is left as
    it is by the wrap and lies within the bounds, and an `and` over ones is one. -/
theorem inBounds_of_range (n : Nat) (hn : 0 < n) (hn' : n < 2 ^ 31) (s : IVec S800000 32)
    (hs : ∀ e, IntOp.cmpi .sge (s e) 0#32 = 1#1 ∧ IntOp.cmpi .slt (s e) (BitVec.ofNat 32 n) = 1#1) (e : S800000.Idx) :
    inBounds (BitVec.ofNat 32 (n - 1)) (startCol (BitVec.ofNat 32 n) s) e = 1#1 := by
  unfold inBounds
  refine Cert.IndexRange.reduce_andi_of_all _ _ _ _ (fun _ => rfl) (fun j => ?_) e
  exact Cert.IndexRange.take_test n hn hn' (s _) (hs _).1 (hs _).2

/-! ## The second and third stretches: the two takes

Inside a take every operation's value is carried to its buffer's own type and read back from it; the two transports
cancel (`ofBuf_toBuf`). What is left at a stretch's ends — the buffers it reads and the one it writes — is a transport
along an equation between a buffer's declared type and its literal one, the identity once the type is computed. -/

/-- Contents carried to a buffer's own type and back are the contents. -/
theorem ofBuf_toBuf {Val : EltTy → Type} {sig : RefSig} {T : BufTy} (x : TRef sig T) (v : T.Contents Val) :
    x.ofBuf (x.toBuf v) = v := by
  obtain ⟨r, h, h1, h2⟩ := x
  subst h
  rfl

/-- A filling take along an axis of extent `n` (`hi = n - 1`): the gathered rows of `tbl` at the wrapped indices `s`,
    filled where the bounds test fails. -/
def take {sT : Shape} (d : GatherDims sT S800000x1 S800000x128) (n hi : BitVec 32) (tbl : FVec Ideal sT .f32) (s : IVec S800000 32) :
    FVec Ideal S800000x128 .f32 :=
  fill (inBounds hi (startCol n s)) (Host.gather d tbl (startCol n s))

set_option maxHeartbeats 2000000 in
/-- The take of the node table, as the stretch computes it from the buffers it finds. -/
theorem take_nodes_term (X : Valuation τ sig (Elt Ideal)) :
    StableHlo.after (hostOps0_1 (F := Ideal)) X (Proc.devRef .tc main_v6)
      = (TRef.of main_v6 : TRef sig ⟨S800000x128, .f32⟩).toBuf
          (take gather_S100000x128_S800000x1_S800000x128_1_0_n_n_0_1_1128 100000#32 99999#32
            ((TRef.of main_arg0 : TRef sig ⟨S100000x128, .f32⟩).ofBuf (X (Proc.devRef .tc main_arg0)))
            ((TRef.of main_v1 : TRef sig ⟨S800000, .i32⟩).ofBuf (X (Proc.devRef .tc main_v1)))) := by
  dsimp only [hostOps0_1]
  after_results
  simp only [ofBuf_toBuf]
  unfold take fill inBounds startCol
  rfl

set_option maxHeartbeats 2000000 in
/-- The take of the relation table, likewise. -/
theorem take_rels_term (X : Valuation τ sig (Elt Ideal)) :
    StableHlo.after (hostOps0_2 (F := Ideal)) X (Proc.devRef .tc main_v7)
      = (TRef.of main_v7 : TRef sig ⟨S800000x128, .f32⟩).toBuf
          (take gather_S500x128_S800000x1_S800000x128_1_0_n_n_0_1_1128 500#32 499#32
            ((TRef.of main_arg1 : TRef sig ⟨S500x128, .f32⟩).ofBuf (X (Proc.devRef .tc main_arg1)))
            ((TRef.of main_v3 : TRef sig ⟨S800000, .i32⟩).ofBuf (X (Proc.devRef .tc main_v3)))) := by
  dsimp only [hostOps0_2]
  after_results
  simp only [ofBuf_toBuf]
  unfold take fill inBounds startCol
  rfl

/-- At a literal buffer the transport is the identity: the written rows, -/
theorem toBuf_v6 (v : FVec Ideal S800000x128 .f32) :
    (TRef.of main_v6 : TRef sig ⟨S800000x128, .f32⟩).toBuf (Val := Elt Ideal) v = v := rfl
theorem toBuf_v7 (v : FVec Ideal S800000x128 .f32) :
    (TRef.of main_v7 : TRef sig ⟨S800000x128, .f32⟩).toBuf (Val := Elt Ideal) v = v := rfl
/-- the index vectors read, -/
theorem ofBuf_v1 (w : IVec S800000 32) : (TRef.of main_v1 : TRef sig ⟨S800000, .i32⟩).ofBuf (Val := Elt Ideal) w = w := rfl
theorem ofBuf_v3 (w : IVec S800000 32) : (TRef.of main_v3 : TRef sig ⟨S800000, .i32⟩).ofBuf (Val := Elt Ideal) w = w := rfl
/-- and the tables read. -/
theorem ofBuf_arg0 (w : FVec Ideal S100000x128 .f32) :
    (TRef.of main_arg0 : TRef sig ⟨S100000x128, .f32⟩).ofBuf (Val := Elt Ideal) w = w := rfl
theorem ofBuf_arg1 (w : FVec Ideal S500x128 .f32) :
    (TRef.of main_arg1 : TRef sig ⟨S500x128, .f32⟩).ofBuf (Val := Elt Ideal) w = w := rfl

/-- On an index vector with every entry in `[0, n)` the take is the gather. -/
theorem take_of_range {sT : Shape} (d : GatherDims sT S800000x1 S800000x128) (n : Nat) (hn : 0 < n) (hn' : n < 2 ^ 31)
    (tbl : FVec Ideal sT .f32) (s : IVec S800000 32)
    (hs : ∀ e, IntOp.cmpi .sge (s e) 0#32 = 1#1 ∧ IntOp.cmpi .slt (s e) (BitVec.ofNat 32 n) = 1#1) :
    take d (BitVec.ofNat 32 n) (BitVec.ofNat 32 (n - 1)) tbl s = Host.gather d tbl (startCol (BitVec.ofNat 32 n) s) :=
  fill_of_all _ _ (inBounds_of_range n hn hn' s hs)

end Cert.KernelIdeal.Result

end
-- ==== Proof.KernelResult.lean ====
/-
  The kernel's result array as one function of the arguments, and the run that ends there.

  Walking back from the result: the second region leaves the combination of (the node table, the mean of messages, the
  transposed self weight) as it finds them; the mean is the shared chain applied to the first region's array and the
  destination column; the first region leaves the messages of (the taken node rows, the taken relation rows, the
  transposed aggregation weight); and on an edge table whose indices are in range the two takes are the two gathers.
  A buffer that a stretch does not write is the same before and after it, which is how each array is carried from the
  stretch that writes it to the region that reads it.
-/
import proofs.«408489_j43155831390586_1_alg».proof.Proof.KernelValue

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal (Chain.col0 Chain.col1 Chain.col2 Chain.wrap Chain.asCol Chain.gatherNodes Chain.gatherRels Chain.segMean)
open Cert.IndexRange (InRange)

variable [Cert.ReferenceIdeal.Facts]
variable (m : (ℓ : Loc nD τ sig) → Buf (Elt Ideal) ℓ) (ρ : Dev nD → PrngReg)

/-- No operation of the named stretch writes the buffer, so the buffer is the same after the stretch as before it. -/
macro "unwritten" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What the first region reads -/

/-- The taken node rows are the gathered node rows, on an edge table in range. -/
theorem nodeRows_at4 (c : Dev nD) (hR : InRange (edges m c)) :
    V4 (F := Ideal) m ρ c main_v6 = Chain.gatherNodes (F := Ideal) (nodes m c) (edges m c) := by
  have e1 : W4 (F := Ideal) m ρ c (Proc.devRef .tc main_v6) = W3 (F := Ideal) m ρ c (Proc.devRef .tc main_v6) := by
    unwritten hostOps0_3
  have e2 : W3 (F := Ideal) m ρ c (Proc.devRef .tc main_v6) = W2 (F := Ideal) m ρ c (Proc.devRef .tc main_v6) := by
    unwritten hostOps0_2
  have e3 := take_nodes_term (W1 (F := Ideal) m ρ c)
  show W4 (F := Ideal) m ρ c (Proc.devRef .tc main_v6) = _
  rw [e1, e2]
  show StableHlo.after (hostOps0_1 (F := Ideal)) (W1 (F := Ideal) m ρ c) (Proc.devRef .tc main_v6) = _
  rw [e3, srcCol_at, nodes_at1, toBuf_v6, ofBuf_v1, ofBuf_arg0,
    take_of_range _ 100000 (by norm_num) (by norm_num) _ _ (fun e => ⟨(hR e).1, (hR e).2.1⟩)]
  unfold Chain.gatherNodes Chain.asCol Chain.wrap startCol
  rfl

/-- The taken relation rows are the gathered relation rows, on an edge table in range. -/
theorem relRows_at4 (c : Dev nD) (hR : InRange (edges m c)) :
    V4 (F := Ideal) m ρ c main_v7 = Chain.gatherRels (F := Ideal) (rels m c) (edges m c) := by
  have e1 : W4 (F := Ideal) m ρ c (Proc.devRef .tc main_v7) = W3 (F := Ideal) m ρ c (Proc.devRef .tc main_v7) := by
    unwritten hostOps0_3
  have e3 := take_rels_term (W2 (F := Ideal) m ρ c)
  have c1 : W2 (F := Ideal) m ρ c (Proc.devRef .tc main_v3) = W1 (F := Ideal) m ρ c (Proc.devRef .tc main_v3) := by
    unwritten hostOps0_1
  have a1 : W2 (F := Ideal) m ρ c (Proc.devRef .tc main_arg1) = W1 (F := Ideal) m ρ c (Proc.devRef .tc main_arg1) := by
    unwritten hostOps0_1
  show W4 (F := Ideal) m ρ c (Proc.devRef .tc main_v7) = _
  rw [e1]
  show StableHlo.after (hostOps0_2 (F := Ideal)) (W2 (F := Ideal) m ρ c) (Proc.devRef .tc main_v7) = _
  rw [e3, c1, a1, relCol_at, rels_at1, toBuf_v7, ofBuf_v3, ofBuf_arg1,
    take_of_range _ 500 (by norm_num) (by norm_num) _ _ (fun e => ⟨(hR e).2.2.1, (hR e).2.2.2⟩)]
  unfold Chain.gatherRels Chain.asCol Chain.wrap startCol
  rfl

/-- The aggregation weight the first region reads is the transpose of the argument: the change of format is the
    identity on the extended reals. -/
theorem wAgg_at4 (c : Dev nD) :
    V4 (F := Ideal) m ρ c main_v9
      = transpose Cert.ReferenceIdeal.S128x128 [1, 0] (wAgg m c) Cert.ReferenceIdeal.Facts₀.transposes_S128x128_S128x128_1_0 := by
  show StableHlo.after (hostOps0_3 (F := Ideal)) (W3 (F := Ideal) m ρ c) (Proc.devRef .tc main_v9) = _
  dsimp only [hostOps0_3]
  after_results
  rfl

/-! ## Between the regions -/

/-- The first region leaves the messages of the gathered rows. -/
theorem messages_at5 (c : Dev nD) (hR : InRange (edges m c)) :
    W5 (F := Ideal) m ρ c (Proc.devRef .tc main_v12)
      = Cert.Spec.message (Chain.gatherNodes (F := Ideal) (nodes m c) (edges m c)) (Chain.gatherRels (F := Ideal) (rels m c) (edges m c))
          (transpose Cert.ReferenceIdeal.S128x128 [1, 0] (wAgg m c) Cert.ReferenceIdeal.Facts₀.transposes_S128x128_S128x128_1_0) := by
  refine (W5_arr m ρ c 3).trans ?_
  rw [Cert.KernelIdeal.Region0.final0, nodeRows_at4 m ρ c hR, relRows_at4 m ρ c hR, wAgg_at4]

/-- The destination column is untouched from the first stretch to the first region's exit. -/
theorem dstCol_at5 (c : Dev nD) : W5 (F := Ideal) m ρ c (Proc.devRef .tc main_v5) = Chain.col2 (edges m c) := by
  have e1 : W4 (F := Ideal) m ρ c (Proc.devRef .tc main_v5) = W3 (F := Ideal) m ρ c (Proc.devRef .tc main_v5) := by
    unwritten hostOps0_3
  have e2 : W3 (F := Ideal) m ρ c (Proc.devRef .tc main_v5) = W2 (F := Ideal) m ρ c (Proc.devRef .tc main_v5) := by
    unwritten hostOps0_2
  have e3 : W2 (F := Ideal) m ρ c (Proc.devRef .tc main_v5) = W1 (F := Ideal) m ρ c (Proc.devRef .tc main_v5) := by
    unwritten hostOps0_1
  rw [W5_of_ne m ρ c main_v5 (by decide), e1, e2, e3]
  exact dstCol_at m ρ c

/-- The mean the second region reads is the shared chain applied to the first region's array. -/
theorem mean_at6 (c : Dev nD) (msg : FVec Ideal Cert.ReferenceIdeal.S800000x128 .f32)
    (h12 : W5 (F := Ideal) m ρ c (Proc.devRef .tc main_v12) = msg) :
    V6 (F := Ideal) m ρ c main_v24 = Chain.segMean (F := Ideal) msg (edges m c) := by
  show StableHlo.after (hostOps1 (F := Ideal)) (W5 (F := Ideal) m ρ c) (Proc.devRef .tc main_v24) = _
  dsimp only [hostOps1]
  after_results
  rw [h12, dstCol_at5]
  rfl

/-! ## What the second region reads -/

/-- The node table is as launched. -/
theorem nodes_at6 (c : Dev nD) : V6 (F := Ideal) m ρ c main_arg0 = nodes m c :=
  ((W7_arr m ρ c 0).trans (((dat1 (V6 m ρ) c).arrAt_in 0 rfl _).trans (A_eq1 (V6 m ρ) c 0))).symm.trans (W7_main_arg0 m ρ c)

/-- The self weight the second region reads is the transpose of the argument. -/
theorem wSelf_at6 (c : Dev nD) :
    V6 (F := Ideal) m ρ c main_v11
      = transpose Cert.ReferenceIdeal.S128x128 [1, 0] (wSelf m c) Cert.ReferenceIdeal.Facts₀.transposes_S128x128_S128x128_1_0 := by
  have e1 : W6 (F := Ideal) m ρ c (Proc.devRef .tc main_v11) = W5 (F := Ideal) m ρ c (Proc.devRef .tc main_v11) := by
    unwritten hostOps1
  show W6 (F := Ideal) m ρ c (Proc.devRef .tc main_v11) = _
  rw [e1, W5_of_ne m ρ c main_v11 (by decide)]
  show StableHlo.after (hostOps0_3 (F := Ideal)) (W3 (F := Ideal) m ρ c) (Proc.devRef .tc main_v11) = _
  dsimp only [hostOps0_3]
  after_results
  rfl

/-! ## The result -/

/-- The result array's contents as a function of the arguments on core `c`. -/
def result (c : Dev nD) : Cert.Spec.SN.Idx → EReal :=
  Cert.Spec.combine (nodes m c)
    (Chain.segMean (F := Ideal)
      (Cert.Spec.message (Chain.gatherNodes (F := Ideal) (nodes m c) (edges m c)) (Chain.gatherRels (F := Ideal) (rels m c) (edges m c))
        (transpose Cert.ReferenceIdeal.S128x128 [1, 0] (wAgg m c) Cert.ReferenceIdeal.Facts₀.transposes_S128x128_S128x128_1_0))
      (edges m c))
    (transpose Cert.ReferenceIdeal.S128x128 [1, 0] (wSelf m c) Cert.ReferenceIdeal.Facts₀.transposes_S128x128_S128x128_1_0)

/-- The second region leaves the combination of the node table, the mean of the messages and the self weight. -/
theorem result_eq (c : Dev nD) (hR : InRange (edges m c)) :
    W7 (F := Ideal) m ρ c (Proc.devRef .tc main_v25) = result m c := by
  refine (W7_arr m ρ c 3).trans ?_
  rw [Cert.KernelIdeal.Region1.final1, nodes_at6, mean_at6 m ρ c _ (messages_at5 m ρ c hR), wSelf_at6]
  rfl

/-- Every weakly fair execution of the kernel's program terminates, nothing faulting, with the result array at
    `result` and the arguments as launched, when every core's edge table is in range. -/
theorem run (hR : ∀ c : Dev nD, InRange (edges m c)) :
    θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c (hR c)), (h c).2⟩) (run_result m ρ)

end Cert.KernelIdeal.Result

end
-- ==== Proof.RefValue.lean ====
import proofs.«408489_j43155831390586_1_alg».proof.Proof.Gen.ReferenceIdeal.Run
import proofs.«408489_j43155831390586_1_alg».proof.Proof.Gen.ReferenceIdeal.Read
import proofs.«408489_j43155831390586_1_alg».proof.Proof.Spec
import proofs.«408489_j43155831390586_1_alg».proof.Proof.HostChain

noncomputable section

namespace Cert.ReferenceIdeal.RefValue

open Cert.ReferenceIdeal Cert.ReferenceIdeal.Gen Idealize.ShloMosaic Idealize.ShloMosaic.TcCoe Idealize.SL.Sem

open Cert.ReferenceIdeal.Read Idealize.ShloMosaic.ValueIdx

section Stages

variable (x0 : (⟨S100000x128, .f32⟩ : BufTy).Contents (Elt Ideal)) (x1 : (⟨S500x128, .f32⟩ : BufTy).Contents (Elt Ideal))
  (x2 x3 : (⟨S128x128, .f32⟩ : BufTy).Contents (Elt Ideal)) (x4 : (⟨S800000x3, .i32⟩ : BufTy).Contents (Elt Ideal))

/-- The per-edge node rows: the row of the node table at each edge's source index, a negative index counted from
    the end of the table. The two sides are the same expression, term for term. -/
theorem gatherNodes_eq : val_main_v14 (F := Ideal) x0 x4 = Chain.gatherNodes (F := Ideal) x0 x4 := by
  unfold val_main_v14 val_main_v13 val_main_v12 val_main_v9 val_main_v11 val_main_v8 val_main_v10 val_main_c val_main_c_0
    val_main_v1 val_main_v0
  unfold Chain.gatherNodes Chain.asCol Chain.wrap Chain.col0
  with_reducible rfl

/-- The per-edge relation rows: the row of the relation table at each edge's relation index, wrapped the same way.
    Again the same expression on both sides. -/
theorem gatherRels_eq : val_main_v21 (F := Ideal) x1 x4 = Chain.gatherRels (F := Ideal) x1 x4 := by
  unfold val_main_v21 val_main_v20 val_main_v19 val_main_v16 val_main_v18 val_main_v15 val_main_v17 val_main_c_1 val_main_c_2
    val_main_v3 val_main_v2
  unfold Chain.gatherRels Chain.asCol Chain.wrap Chain.col1
  with_reducible rfl

/-- The edge contraction is the message: entry `(e, j)` is `∑ k, (gn e k + ge e k) · w k j`, the sum over the one
    contracted axis of extent 128; the left operand at `(e, k)` is the sum of the two gathered rows there, and the
    right operand is the transposed weight at `(k, j)`. -/
theorem msg_eq :
    val_main_v24 (F := Ideal) x0 x1 x3 x4
      = Cert.Spec.message (Chain.gatherNodes (F := Ideal) x0 x4) (Chain.gatherRels (F := Ideal) x1 x4)
          (transpose S128x128 [1, 0] x3 Facts₀.transposes_S128x128_S128x128_1_0) := by
  funext i
  obtain ⟨e, j, rfl⟩ : ∃ (e : Fin 800000) (j : Fin 128), i = ix2 e j := ⟨i 0, i 1, eq_ix2 i⟩
  rw [val_main_v24_apply]
  change _ = Cert.Spec.msgAt _ _ _ e j
  unfold Cert.Spec.msgAt
  refine Finset.sum_congr rfl fun k _ => ?_
  -- the left operand is read at row `e`, column `k`; the right at row `k`, column `j`
  have el : lidx_main_v24 (ix2 e j) k = ix2 e k := funext fun a => by match a with | ⟨0, _⟩ => rfl | ⟨1, _⟩ => rfl
  have er : ridx_main_v24 (ix2 e j) k = ix2 k j := funext fun a => by match a with | ⟨0, _⟩ => rfl | ⟨1, _⟩ => rfl
  rw [el, er, val_main_v22_apply, gatherNodes_eq, gatherRels_eq]
  rfl

/-- The quotient of the two sums by destination is the per-node mean of the edge contraction: the same expression
    on both sides, with the edge contraction carried as one array. -/
theorem mean_eq :
    val_main_v36 (F := Ideal) x0 x1 x3 x4 = Chain.segMean (F := Ideal) (val_main_v24 (F := Ideal) x0 x1 x3 x4) x4 := by
  unfold val_main_v36 val_main_v27 val_main_v35 val_main_v34 val_main_v33 val_main_v31 val_main_v32 val_main_v25 val_main_v26
    val_main_v28 val_main_v29 val_main_v30 val_main_cst val_main_cst_3 val_main_cst_4 val_main_cst_5 val_main_v5 val_main_v4
  unfold Chain.segMean Chain.asCol Chain.col2
  with_reducible rfl

/-- The last stage is the combination: entry `(n, j)` is the activation of `∑ k, x n k · w k j + mean n j`. The node
    contraction is the sum over the contracted axis of extent 128, its left operand read at `(n, k)` and the transposed
    weight at `(k, j)`; the comparison with zero, the scaling by the constant and the choice between the two are
    entry by entry, and the two constants are read off their one element. -/
theorem val_eq :
    val_main_v42 (F := Ideal) x0 x1 x2 x3 x4
      = Cert.Spec.combine x0
          (Chain.segMean (F := Ideal)
            (Cert.Spec.message (Chain.gatherNodes (F := Ideal) x0 x4) (Chain.gatherRels (F := Ideal) x1 x4)
              (transpose S128x128 [1, 0] x3 Facts₀.transposes_S128x128_S128x128_1_0)) x4)
          (transpose S128x128 [1, 0] x2 Facts₀.transposes_S128x128_S128x128_1_0) := by
  funext i
  obtain ⟨n, j, rfl⟩ : ∃ (n : Fin 100000) (j : Fin 128), i = ix2 n j := ⟨i 0, i 1, eq_ix2 i⟩
  rw [val_main_v42_apply, val_main_v39_apply, val_main_v41_apply, val_main_v37_apply, val_main_v7_apply,
    val_main_v38_apply, val_main_v40_apply, mean_eq, msg_eq]
  change _ = Cert.Spec.combAt _ _ _ n j
  unfold Cert.Spec.combAt Cert.Spec.act
  have hs : ∑ k : Fin 128, x0 (lidx_main_v7 (ix2 n j) k) * val_main_v6 (F := Ideal) x2 (ridx_main_v7 (ix2 n j) k)
      = ∑ k : Fin 128, x0 (ix2 n k) * transpose S128x128 [1, 0] x2 Facts₀.transposes_S128x128_S128x128_1_0 (ix2 k j) := by
    refine Finset.sum_congr rfl fun k _ => ?_
    have el : lidx_main_v7 (ix2 n j) k = ix2 n k := funext fun a => by match a with | ⟨0, _⟩ => rfl | ⟨1, _⟩ => rfl
    have er : ridx_main_v7 (ix2 n j) k = ix2 k j := funext fun a => by match a with | ⟨0, _⟩ => rfl | ⟨1, _⟩ => rfl
    rw [el, er]
    rfl
  rw [hs]
  rfl

end Stages

theorem res_eq (m : (ℓ : Loc nD τ sig) → Buf (Elt Ideal) ℓ) (c : Dev nD) :
    Cert.ReferenceIdeal.Value.res_out0 (F := Ideal) m c
      = Cert.Spec.combine (m ((c.tc : Thread nD τ).loc main_arg0))
          (Chain.segMean (F := Ideal)
            (Cert.Spec.message
              (Chain.gatherNodes (F := Ideal) (m ((c.tc : Thread nD τ).loc main_arg0)) (m ((c.tc : Thread nD τ).loc main_arg4)))
              (Chain.gatherRels (F := Ideal) (m ((c.tc : Thread nD τ).loc main_arg1)) (m ((c.tc : Thread nD τ).loc main_arg4)))
              (transpose S128x128 [1, 0] (m ((c.tc : Thread nD τ).loc main_arg3)) Facts₀.transposes_S128x128_S128x128_1_0))
            (m ((c.tc : Thread nD τ).loc main_arg4)))
          (transpose S128x128 [1, 0] (m ((c.tc : Thread nD τ).loc main_arg2)) Facts₀.transposes_S128x128_S128x128_1_0) := by
  exact (val_main_v42_eq (F := Ideal) m c).trans (val_eq _ _ _ _ _)

end Cert.ReferenceIdeal.RefValue

end
-- ==== Proof.lean ====
/-
  A relational graph layer, kernel against reference, over the extended reals.

  Inputs: a node table (100000 × 128), a relation table (500 × 128), two 128 × 128 weights, and 800000 edges, each a
  (source node, relation, destination node) triple of 32-bit indices. Both programs compute, per edge, the MESSAGE
  `(node row at the source + relation row) · W_aggᵀ`; per node, the MEAN of the messages arriving there (their sum by
  destination over `max count 1`); and the result `act (node table · W_selfᵀ + mean)`, where `act h` is `h` for `h ≥ 0`
  and the shared constant of binary32 word `0x3E6AAAAB` times `h` otherwise.

  Where they differ. The kernel gathers rows with a take that FILLS: an index outside its table (after a negative one is
  counted from the end) yields a filler row; the reference's indexing CLAMPS such an index into the table. So the two
  agree exactly where every source and relation index is a row of its table, which is the domain the statement's
  precondition states beside finiteness of the floats. (The destination index goes through the same scatter-add in both
  programs and needs no condition.) Everything else is a difference of arrangement that the extended reals do not see:
  the kernel computes the two products block by block (125 blocks of 6400 edges, 20 blocks of 5000 nodes) through a
  16-bit format whose conversions are the identity here, the reference as whole-array contractions; each side's
  contraction is one sum over an axis of 128.

  The proof. `Cert.Spec` states the message and the combination as functions of whole arrays.
  `Cert.KernelIdeal.Result.run`: the kernel's program ends with its result array at `Result.result` — the combination of
  (node table, shared mean chain of the messages of the gathered rows, transposed weights) — read back through its
  seven stretches from the two regions' arrays. `Cert.ReferenceIdeal.RefValue.res_eq`: the reference's composed term is
  the same function. The frames are the programs' runs with the result dropped; the idealization rewrote nothing.
-/
import proofs.«408489_j43155831390586_1_alg».proof.Defs
import proofs.«408489_j43155831390586_1_alg».proof.Proof.Gen.Kernel
import proofs.«408489_j43155831390586_1_alg».proof.Proof.Gen.Kernel.Frame
import proofs.«408489_j43155831390586_1_alg».proof.Proof.Gen.KernelIdeal
import proofs.«408489_j43155831390586_1_alg».proof.Proof.Gen.KernelIdeal.Frame
import proofs.«408489_j43155831390586_1_alg».proof.Proof.Gen.ReferenceIdeal
import proofs.«408489_j43155831390586_1_alg».proof.Proof.Gen.ReferenceIdeal.Run
import proofs.«408489_j43155831390586_1_alg».proof.Proof.Gen.Pre_finite_inputs
import proofs.«408489_j43155831390586_1_alg».proof.Proof.IndexRange
import proofs.«408489_j43155831390586_1_alg».proof.Proof.KernelResult
import proofs.«408489_j43155831390586_1_alg».proof.Proof.RefValue
import Idealize.ShloMosaic.Adequacy
import Idealize.ShloMosaic.Init

noncomputable section

namespace Cert.Proof

open Idealize.ShloMosaic Idealize.SL.Sem

/-- The kernel's program, word for word: it runs and leaves its arguments as launched. -/
theorem frame_kernel : Cert.frame_Kernel := fun m ρ _ => Cert.Kernel.Gen.frame m ρ

/-- The same program over the extended reals. -/
theorem frame_kernelIdeal : Cert.frame_KernelIdeal := fun m ρ _ => Cert.KernelIdeal.Gen.frame m ρ

/-- The reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every edge's source and relation index in range, both programs end
    with their result arrays at the same function of the arguments. -/
theorem algebraic : Cert.algebraic_KernelIdeal_ReferenceIdeal := by
  intro m ρ m' ρ' hpre hagree
  have hR : ∀ c : Dev Cert.KernelIdeal.nD, Cert.IndexRange.InRange (Cert.KernelIdeal.Result.edges m c) :=
    fun c => Cert.IndexRange.inRange_of_pre _ _ _ _ _ (hpre c)
  refine ⟨fun c => Cert.KernelIdeal.Result.result m c, Cert.KernelIdeal.Result.run m ρ hR, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.res_eq m' c).trans ?_
  obtain ⟨h0, h1, h2, h3, h4⟩ := hagree c
  rw [h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
